-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S100000x128 .f32) (main_arg1 : FVec F S128x64 .f32) (main_arg2 : FVec F S64 .f32) (main_arg3 : IVec S800000 32) (main_arg4 : IVec S800000 32) (main_arg5 : FVec F S800000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S100000x128 : Shape := ⟨2, ![100000, 128]⟩
abbrev S128x64 : Shape := ⟨2, ![128, 64]⟩
abbrev S64 : Shape := ⟨1, ![64]⟩
abbrev S800000 : Shape := ⟨1, ![800000]⟩
abbrev S100000x64 : Shape := ⟨2, ![100000, 64]⟩
abbrev S10000x128 : Shape := ⟨2, ![10000, 128]⟩
abbrev S10000x64 : Shape := ⟨2, ![10000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S100000x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S100000x64, .f32⟩
  | .hbm, ⟨21, _⟩ => ⟨S800000x1, .i32⟩
  | .hbm, ⟨22, _⟩ => ⟨S100000x64, .f32⟩
  | .hbm, ⟨23, _⟩ => ⟨S1x64, .f32⟩
  | .hbm, ⟨24, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x128_S128x64_S10000x64_1_0_0_1_n_n_wf : DotDims.WF S10000x128 S128x64 S10000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S800000 : Shape := ⟨1, ![800000]⟩
abbrev S100000x64 : Shape := ⟨2, ![100000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S100000x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S100000x64, .f32⟩
  | .hbm, ⟨21, _⟩ => ⟨S800000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

class Facts : Prop extends Facts₀ where

variable [Facts]
-- ==== Proof.Spec.lean ====
/-
  The mathematics of the layer, stated once over the whole arrays.

  A graph-convolution layer: the node features `X` ([100000, 128]) are projected by `W` ([128, 64]),
  `proj X W (r, c) = ∑ k, X (r, k) · W (k, c)`; every edge `e` then adds `vals e · proj (cols e, ·)` into row
  `rows e` of a zero array (the aggregation `agg`, kept here as the one composite of host operations both programs
  apply, never opened); and the bias is added to every row: `out (r, c) = agg (r, c) + bias c`.
-/
import proofs.«104675_j17016660427562_1_alg».proof.KernelIdeal
import Idealize.ShloMosaic.Lib.ValueIdx
import Idealize.ShloMosaic.PureOps.Ideal.Laws

noncomputable section

namespace Cert.Gcn

open Idealize.ShloMosaic Cert.KernelIdeal

/-- Entry `(r, k)` of the features, for the output index `i = (r, c)`. -/
abbrev xAt (i : S100000x64.Idx) (k : Fin 128) : S100000x128.Idx := fun a => match a with
  | ⟨0, _⟩ => ⟨(i 0).val, (i 0).isLt⟩
  | ⟨1, _⟩ => ⟨k.val, k.isLt⟩

/-- Entry `(k, c)` of the weights, for the output index `i = (r, c)`. -/
abbrev wAt (i : S100000x64.Idx) (k : Fin 128) : S128x64.Idx := fun a => match a with
  | ⟨0, _⟩ => ⟨k.val, k.isLt⟩
  | ⟨1, _⟩ => ⟨(i 1).val, (i 1).isLt⟩

/-- The projection `X · W` over the extended reals, entry by entry. -/
def proj (X : FVec Ideal S100000x128 .f32) (W : FVec Ideal S128x64 .f32) : FVec Ideal S100000x64 .f32 :=
  fun i => ∑ k : Fin 128, X (xAt i k) * W (wAt i k)

/-- Column `c` of the bias, for the output index `i = (r, c)`. -/
abbrev bAt (i : S100000x64.Idx) : S64.Idx := fun a => match a with
  | ⟨0, _⟩ => ⟨(i 1).val, (i 1).isLt⟩

variable [Facts]
open Facts₀ Facts

/-- The aggregation over the edges, as the composite of host operations the program applies to the projected
    features `sp`: a negative column index wraps by the node count, row `cols e` of `sp` is gathered for every edge,
    scaled by `vals e`, and the scaled rows are summed into row `rows e` of a zero array. -/
def agg {F : FTy → Type} [FloatOps F] (sp : (⟨S100000x64, .f32⟩ : BufTy).Contents (Elt F)) (rows cols : (⟨S800000, .i32⟩ : BufTy).Contents (Elt F))
    (vals : (⟨S800000, .f32⟩ : BufTy).Contents (Elt F)) : (⟨S100000x64, .f32⟩ : BufTy).Contents (Elt F) :=
  Host.scatterAdd scatter_S100000x64_S800000x1_S800000x64_1_0_0_1
    (broadcastInDim S100000x64 ![] bcast_S_S100000x64 (constant (F := F) S_ .f32 0x00000000#32))
    (broadcastInDim S800000x1 ![0] bcast_S800000_S800000x1_0 rows)
    (mulf (broadcastInDim S800000x64 ![0, 1] bcast_S800000x1_S800000x64_0_1 (broadcastInDim S800000x1 ![0] bcast_S800000_S800000x1_0 vals))
      (Host.gather gather_S100000x64_S800000x1_S800000x64_1_0_n_n_0_1_164 sp
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 100000#32))) cols))))

/-- The layer's result: the aggregated projection plus the bias of the column. -/
def out (X : FVec Ideal S100000x128 .f32) (W : FVec Ideal S128x64 .f32) (bias : FVec Ideal S64 .f32)
    (rows cols : (⟨S800000, .i32⟩ : BufTy).Contents (Elt Ideal)) (vals : FVec Ideal S800000 .f32) : FVec Ideal S100000x64 .f32 :=
  fun i => FloatOps.addf (agg (F := Ideal) (proj X W) rows cols vals i) (bias (bAt i))

end Cert.Gcn

end
-- ==== Proof.ProjBlock.lean ====
/-
  One block of the projection. The first kernel's body loads a [10000, 128] block of the features and the whole
  weights, narrows both (a change of float format: the identity over the extended reals) and multiplies them into
  a zero accumulator: entry `(p, q)` of what it stores is `∑ k, x (p, k) · w (k, q)`.
-/
import proofs.«104675_j17016660427562_1_alg».proof.Proof.Gen.KernelIdeal.Skeleton
import Idealize.ShloMosaic.Lib.ValueIdx
import Idealize.ShloMosaic.PureOps.Ideal.Laws

noncomputable section

namespace Cert.Gcn

open Idealize.ShloMosaic Cert.KernelIdeal Cert.KernelIdeal.Gen

/-- Entry `(p, k)` of the features' block, for the block's output index `j = (p, q)`. -/
abbrev bxAt (j : S10000x64.Idx) (k : Fin 128) : S10000x128.Idx := fun a => match a with
  | ⟨0, _⟩ => ⟨(j 0).val, (j 0).isLt⟩
  | ⟨1, _⟩ => ⟨k.val, k.isLt⟩

/-- Entry `(k, q)` of the weights, for the block's output index `j = (p, q)`. -/
abbrev bwAt (j : S10000x64.Idx) (k : Fin 128) : S128x64.Idx := fun a => match a with
  | ⟨0, _⟩ => ⟨k.val, k.isLt⟩
  | ⟨1, _⟩ => ⟨(j 1).val, (j 1).isLt⟩

/-- The left operand's row is the output's row. -/
theorem blk_lhs_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the contracted index. -/
theorem blk_lhs_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
/-- The right operand's row is the contracted index. -/
theorem blk_rhs_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
/-- The right operand's column is the output's column. -/
theorem blk_rhs_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the first kernel stores, entry by entry: the block's rows times the weights' columns, summed over the
    128 features. -/
theorem proj_block (x0 : FVec Ideal S10000x128 .f32) (x1 : FVec Ideal S128x64 .f32) (j : S10000x64.Idx) :
    k0_pay1 (F := Ideal) x0 x1 j = ∑ k : Fin 128, x0 (bxAt j k) * x1 (bwAt j k) := by
  unfold k0_pay1
  simp only [matmul]
  show FloatOps.matmul dot_S10000x128_S128x64_S10000x64_1_0_0_1_n_n none x0 x1 (constant S10000x64 .f32 0x00000000#32) j = _
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = bxAt j k := funext fun a => Fin.ext (by
    match a with
    | ⟨0, _⟩ => exact blk_lhs_0 _ _
    | ⟨1, _⟩ => exact (blk_lhs_1 _ _).trans hk)
  have er : dot_S10000x128_S128x64_S10000x64_1_0_0_1_n_n.rhsIdx j ((ValueIdx.contrEquiv1 dot_S10000x128_S128x64_S10000x64_1_0_0_1_n_n 128 rfl rfl).symm k) = bwAt j k := funext fun a => Fin.ext (by
    match a with
    | ⟨0, _⟩ => exact (blk_rhs_0 _ _).trans hk
    | ⟨1, _⟩ => exact blk_rhs_1 _ _)
  rw [el, er]

end Cert.Gcn

end
-- ==== Proof.ProjValue.lean ====
/-
  The projected features as one array. Point `t` of the first kernel's grid reads rows `10000 t … 10000 t + 9999`
  of the features and the whole weights, and writes back the same rows of the product; the ten blocks tile the
  [100000, 64] array, so after the region it holds `proj X W` everywhere.
-/
import proofs.«104675_j17016660427562_1_alg».proof.Proof.Gen.KernelIdeal.Frame
import proofs.«104675_j17016660427562_1_alg».proof.Proof.Spec
import proofs.«104675_j17016660427562_1_alg».proof.Proof.ProjBlock
import Idealize.ShloMosaic.Lib.Pipeline.Value

set_option maxRecDepth 16384

noncomputable section

namespace Cert.Gcn

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- The features and the weights as the region finds them, at their literal types. -/
abbrev xarr (c : Dev nD) : FVec Ideal S100000x128 .f32 := V c main_arg0
abbrev warr (c : Dev nD) : FVec Ideal S128x64 .f32 := V c main_arg1

theorem off_zero : (![0, 0] : Fin 2 → Nat) = fun _ => 0 := funext fun a => by fin_cases a <;> rfl

/-- The first region's block indices over its grid: the features' and the result's row block is the point, every
    other block index is zero. -/
theorem proj_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region finds. -/
theorem proj_flushed (c : Dev nD) (t : Fin cfg0.N) :
    (dat0 V c).flushed 2 t = ((cfg0.win 2).blk t).view.read (Elt Ideal) (proj (V c main_arg0) (V c main_arg1)) := by
  show (cfg0.win 2).cut (grid0.coords t) ((dat0 V c).after 2 t) = _
  rw [after0_2]
  unfold out0_2
  rw [View.canon_unit_zero off_zero]
  simp only [View.ld_unit_zero (S := S10000x128) off_zero, View.ld_unit_zero (S := S128x64) off_zero]
  obtain ⟨e0, e1, e2, e3, e4, e5⟩ := proj_idx t
  funext j
  refine (proj_block (iblk0 V c 0 t) (iblk0 V c 1 t) j).trans ?_
  show ∑ k : Fin 128, xarr V c (((cfg0.win 0).blk t).view.emb (bxAt j k)) * warr V c (((cfg0.win 1).blk t).view.emb (bwAt j k))
    = ∑ k : Fin 128, xarr V c (xAt (((cfg0.win 2).blk t).view.emb j) k) * warr V c (wAt (((cfg0.win 2).blk t).view.emb j) k)
  refine Finset.sum_congr rfl fun k _ => ?_
  have h0 : ((cfg0.win 0).blk t).view.emb (bxAt j k) = xAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (bwAt j k) = wAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the array lies in point `t`'s block iff each coordinate lies in the block's range. -/
theorem proj_mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row `r` is written back by point `r / 10000`. -/
theorem proj_cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := proj_idx t
  refine ⟨t, flush0_2 t, ?_⟩
  rw [proj_mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the first region the result window's array is the projection of the arrays the region found. -/
theorem proj_final (c : Dev nD) : (dat0 V c).arrAt 2 cfg0.N = proj (V c main_arg0) (V c main_arg1) :=
  (dat0 V c).arrAt_eq_of_cover 2 (proj (V c main_arg0) (V c main_arg1)) (fun t _ => proj_flushed V c t) proj_cover

end Cert.Gcn

end
-- ==== Proof.BiasValue.lean ====
/-
  The bias added to every row. The second kernel's body loads a [10000, 64] block of the aggregated features and
  the [1, 64] bias row, broadcasts the row over the block's rows and adds: entry `(p, q)` of what it stores is
  `a (p, q) + b (0, q)`. Point `t` of its grid reads and writes rows `10000 t … 10000 t + 9999`; the ten blocks
  tile the [100000, 64] result.
-/
import proofs.«104675_j17016660427562_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.Gcn

open Idealize.ShloMosaic Idealize.ShloMosaic.TcCoe Idealize.ShloMosaic.ValueIdx Idealize.SL.Sem Cert.KernelIdeal Cert.KernelIdeal.Gen

/-- The bias row's entry under column `q` of a block's index `j = (p, q)`. -/
abbrev blkRow (j : S10000x64.Idx) : S1x64.Idx := ix2 (0 : Fin 1) (⟨(j 1).val, (j 1).isLt⟩ : Fin 64)

/-- The bias row's entry under column `c` of the array's index `i = (r, c)`. -/
abbrev arrRow (i : S100000x64.Idx) : S1x64.Idx := ix2 (0 : Fin 1) (⟨(i 1).val, (i 1).isLt⟩ : Fin 64)

/-- What the second kernel stores, entry by entry. -/
theorem bias_block {F : FTy → Type} [FloatOps F] (v0 : FVec F S10000x64 .f32) (v2 : FVec F S1x64 .f32) (j : S10000x64.Idx) :
    k1_pay1 (F := F) v0 v2 j = FloatOps.addf (v0 j) (v2 (blkRow j)) := by
  obtain ⟨p, q, rfl⟩ : ∃ (p : Fin 10000) (q : Fin 64), j = ix2 p q := ⟨j 0, j 1, eq_ix2 j⟩
  unfold k1_pay1
  show FloatOps.addf (shapeCast S10000x64 v0 shapeCasts_S10000x64_S10000x64 (ix2 p q))
    (broadcastTo S10000x64 (shapeCast S1x64 v2 shapeCasts_S1x64_S1x64) broadcasts_S1x64_S10000x64 (ix2 p q)) = _
  rw [shapeCast_self, shapeCast_self, broadcastTo_1b_ab_apply]

/-- A whole array with the one row `B` added to each of its rows. -/
def rowAdded (A : FVec Ideal S100000x64 .f32) (B : FVec Ideal S1x64 .f32) : FVec Ideal S100000x64 .f32 :=
  fun i => FloatOps.addf (A i) (B (arrRow i))

variable (V : (c : Dev nD) → (b : Ref sig .tc) → Buf (Elt Ideal) ((c : Thread nD τ).loc b))

/-- The aggregated features and the bias row as the region finds them, at their literal types. -/
abbrev aarr (c : Dev nD) : FVec Ideal S100000x64 .f32 := V c main_v13
abbrev barr (c : Dev nD) : FVec Ideal S1x64 .f32 := V c main_v14

theorem off_zero' : (![0, 0] : Fin 2 → Nat) = fun _ => 0 := funext fun a => by fin_cases a <;> rfl

/-- The second region's block indices over its grid: the operand's and the result's row block is the point,
    every other block index is zero. -/
theorem bias_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the operand array with the bias row added. -/
theorem bias_flushed (c : Dev nD) (t : Fin cfg1.N) :
    (dat1 V c).flushed 2 t = ((cfg1.win 2).blk t).view.read (Elt Ideal) (rowAdded (V c main_v13) (V c main_v14)) := by
  show (cfg1.win 2).cut (grid1.coords t) ((dat1 V c).after 2 t) = _
  rw [after1_2]
  unfold out1_2
  rw [View.canon_unit_zero off_zero']
  simp only [View.ld_unit_zero (S := S10000x64) off_zero', View.ld_unit_zero (S := S1x64) off_zero']
  obtain ⟨e0, e1, e2, e3, e4, e5⟩ := bias_idx t
  funext j
  refine (bias_block (F := Ideal) (iblk1 V c 0 t) (iblk1 V c 1 t) j).trans ?_
  show FloatOps.addf (aarr V c (((cfg1.win 0).blk t).view.emb j)) (barr V c (((cfg1.win 1).blk t).view.emb (blkRow j)))
    = FloatOps.addf (aarr V c (((cfg1.win 2).blk t).view.emb j)) (barr V c (arrRow (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (blkRow j) = arrRow (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- An index of the array lies in point `t`'s block iff each coordinate lies in the block's range. -/
theorem bias_mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v15).slice (win1_2.rect t)).set ↔ _
  rw [View.set_slice_whole, Rect.mem_set_unit]
  exact Iff.rfl

/-- Row `r` is written back by point `r / 10000`. -/
theorem bias_cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨e0, e1, e2, e3, e4, e5⟩ := bias_idx t
  refine ⟨t, flush1_2 t, ?_⟩
  rw [bias_mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the second region the result array is the operand array the region found with the bias row it found
    added to every row. -/
theorem bias_final (c : Dev nD) : (dat1 V c).arrAt 2 cfg1.N = rowAdded (V c main_v13) (V c main_v14) :=
  (dat1 V c).arrAt_eq_of_cover 2 (rowAdded (V c main_v13) (V c main_v14)) (fun t _ => bias_flushed V c t) bias_cover

end Cert.Gcn

end
-- ==== Proof.KernelValue.lean ====
/-
  The whole kernel program's result as one function of its arguments. Between the two regions the host
  operations compute the aggregation `agg` of the first region's result (and lay the bias out as a [1, 64] row);
  the first region's result is the projection (`proj_final`), the second adds the bias row to every row
  (`bias_final`). So the result array ends at `out X W bias rows cols vals`.
-/
import proofs.«104675_j17016660427562_1_alg».proof.Proof.ProjValue
import proofs.«104675_j17016660427562_1_alg».proof.Proof.BiasValue
import proofs.«104675_j17016660427562_1_alg».proof.Proof.RegionsRun
import Idealize.ShloMosaic.Lib.StableHlo.Run

set_option maxRecDepth 16384

noncomputable section

namespace Cert.Gcn

open Idealize.ShloMosaic Idealize.ShloMosaic.TcCoe Idealize.ShloMosaic.ValueIdx Idealize.ShloMosaic.StableHlo Idealize.SL.Sem Cert.KernelIdeal Cert.KernelIdeal.Gen

/-- The host operations between the regions leave, in the second region's operand, the aggregation of whatever
    the first region's result buffer holds, by the edges' rows, columns and values. -/
theorem host_agg (W : Valuation τ sig (Elt Ideal)) :
    (StableHlo.after (hostOps1 (F := Ideal)) W (Proc.devRef .tc main_v13) : FVec Ideal S100000x64 .f32)
      = agg (F := Ideal) (W (Proc.devRef .tc main_v0)) (W (Proc.devRef .tc main_arg3)) (W (Proc.devRef .tc main_arg4)) (W (Proc.devRef .tc main_arg5)) := by
  after_results
  rfl

/-- and, in its bias operand, the bias laid out as one row. -/
theorem host_bias (W : Valuation τ sig (Elt Ideal)) :
    (StableHlo.after (hostOps1 (F := Ideal)) W (Proc.devRef .tc main_v14) : FVec Ideal S1x64 .f32)
      = shapeCast S1x64 (W (Proc.devRef .tc main_arg2) : FVec Ideal S64 .f32) shapeCasts_S64_S1x64 := by
  after_results
  rfl

variable (m : (ℓ : Loc nD τ sig) → Buf (Elt Ideal) ℓ) (ρ : Dev nD → PrngReg)

/-- At the first region's exit its result buffer holds the projection of the launch's features and weights. -/
theorem exit0_proj (c : Dev nD) :
    (W1 m ρ c (Proc.devRef .tc main_v0) : FVec Ideal S100000x64 .f32)
      = proj (m ((c : Thread nD τ).loc main_arg0)) (m ((c : Thread nD τ).loc main_arg1)) :=
  (W1_arr m ρ c 2).trans (proj_final (V0 m ρ) c)

/-- The arrays no region window holds pass through the first region as launched. -/
theorem exit0_arg2 (c : Dev nD) : W1 m ρ c (Proc.devRef .tc main_arg2) = m ((c : Thread nD τ).loc main_arg2) :=
  W1_of_ne m ρ c main_arg2 (by decide)
theorem exit0_arg3 (c : Dev nD) : W1 m ρ c (Proc.devRef .tc main_arg3) = m ((c : Thread nD τ).loc main_arg3) :=
  W1_of_ne m ρ c main_arg3 (by decide)
theorem exit0_arg4 (c : Dev nD) : W1 m ρ c (Proc.devRef .tc main_arg4) = m ((c : Thread nD τ).loc main_arg4) :=
  W1_of_ne m ρ c main_arg4 (by decide)
theorem exit0_arg5 (c : Dev nD) : W1 m ρ c (Proc.devRef .tc main_arg5) = m ((c : Thread nD τ).loc main_arg5) :=
  W1_of_ne m ρ c main_arg5 (by decide)

/-- The second region's operand is the aggregated projection of the launch's arrays. -/
theorem entry1_agg (c : Dev nD) :
    (V2 m ρ c main_v13 : FVec Ideal S100000x64 .f32)
      = agg (F := Ideal) (proj (m ((c : Thread nD τ).loc main_arg0)) (m ((c : Thread nD τ).loc main_arg1)))
          (m ((c : Thread nD τ).loc main_arg3)) (m ((c : Thread nD τ).loc main_arg4)) (m ((c : Thread nD τ).loc main_arg5)) := by
  show (StableHlo.after (hostOps1 (F := Ideal)) (W1 m ρ c) (Proc.devRef .tc main_v13) : FVec Ideal S100000x64 .f32) = _
  rw [host_agg, exit0_proj, exit0_arg3, exit0_arg4, exit0_arg5]

/-- Its bias operand, at the row entry under column `c`, is the launch's bias at `c`. -/
theorem entry1_bias (c : Dev nD) (i : S100000x64.Idx) :
    (V2 m ρ c main_v14 : FVec Ideal S1x64 .f32) (arrRow i) = (m ((c : Thread nD τ).loc main_arg2) : FVec Ideal S64 .f32) (bAt i) := by
  show (StableHlo.after (hostOps1 (F := Ideal)) (W1 m ρ c) (Proc.devRef .tc main_v14) : FVec Ideal S1x64 .f32) (arrRow i) = _
  rw [host_bias, exit0_arg2]
  exact (shapeCast_a_1a_apply _ shapeCasts_S64_S1x64 (0 : Fin 1) (⟨(i 1).val, (i 1).isLt⟩ : Fin 64)).trans
    (congrArg _ (funext fun a => match a with | ⟨0, _⟩ => rfl))

/-- THE RESULT: at the last boundary the result buffer holds the layer's output of the launch's arrays. -/
theorem result_eq (c : Dev nD) :
    (W3 m ρ c (Proc.devRef .tc main_v15) : FVec Ideal S100000x64 .f32)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine ((W3_arr m ρ c 2).trans (bias_final (V2 m ρ) c)).trans ?_
  funext i
  unfold rowAdded out
  rw [entry1_agg, entry1_bias]

/-- The kernel program's run with its result read: every weakly fair execution terminates, nothing faulting, with
    the result array at the layer's output of the launch's arrays and the arguments unchanged. -/
theorem run : θ_run defs (onTc (τ := τ) (main (F := Ideal))) ⟨m, fun _ => 0, ρ⟩ (fun r => ∀ c : Dev nD,
      r.2.mem ((c.tc : Thread nD τ).loc main_v15) = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.RunResult.run_result (F := Ideal) m ρ)

end Cert.Gcn

end
-- ==== Proof.RefValue.lean ====
/-
  The reference's result is the same function. Its run ends at the host operations' composed term; read one
  operation at a time, its matrix product is the sum `proj` names, the gather, scaling and scatter-add in between
  are the very composite `agg`, and its two broadcasts of the bias read the bias at the entry's column.
-/
import proofs.«104675_j17016660427562_1_alg».proof.Defs
import proofs.«104675_j17016660427562_1_alg».proof.Proof.Gen.ReferenceIdeal.Run
import proofs.«104675_j17016660427562_1_alg».proof.Proof.Gen.ReferenceIdeal.Read
import proofs.«104675_j17016660427562_1_alg».proof.Proof.Gen.KernelIdeal
import proofs.«104675_j17016660427562_1_alg».proof.Proof.Spec

noncomputable section

namespace Cert.Gcn.Ref

open Idealize.ShloMosaic Cert.ReferenceIdeal Cert.ReferenceIdeal.Read

/-- The reference's `dot_general` is the projection, entry by entry. -/
theorem ref_proj (x0 : (⟨S100000x128, .f32⟩ : BufTy).Contents (Elt Ideal)) (x1 : (⟨S128x64, .f32⟩ : BufTy).Contents (Elt Ideal)) :
    val_main_v0 (F := Ideal) x0 x1 = Cert.Gcn.proj x0 x1 :=
  funext fun i => (val_main_v0_apply x0 x1 i).trans rfl

/-- The reference's gather, scaling and scatter-add of its product are the aggregation of it. -/
theorem ref_agg (x0 : (⟨S100000x128, .f32⟩ : BufTy).Contents (Elt Ideal)) (x1 : (⟨S128x64, .f32⟩ : BufTy).Contents (Elt Ideal))
    (x3 x4 : (⟨S800000, .i32⟩ : BufTy).Contents (Elt Ideal)) (x5 : (⟨S800000, .f32⟩ : BufTy).Contents (Elt Ideal)) :
    val_main_v13 (F := Ideal) x0 x1 x3 x4 x5 = Cert.Gcn.agg (F := Ideal) (val_main_v0 (F := Ideal) x0 x1) x3 x4 x5 := rfl

/-- The reference's result stage is the layer's output. -/
theorem ref_out (x0 : (⟨S100000x128, .f32⟩ : BufTy).Contents (Elt Ideal)) (x1 : (⟨S128x64, .f32⟩ : BufTy).Contents (Elt Ideal))
    (x2 : (⟨S64, .f32⟩ : BufTy).Contents (Elt Ideal))
    (x3 x4 : (⟨S800000, .i32⟩ : BufTy).Contents (Elt Ideal)) (x5 : (⟨S800000, .f32⟩ : BufTy).Contents (Elt Ideal)) :
    val_main_v16 (F := Ideal) x0 x1 x2 x3 x4 x5 = Cert.Gcn.out x0 x1 x2 x3 x4 x5 := by
  funext i
  rw [val_main_v16_apply, val_main_v15_apply, val_main_v14_apply, ref_agg, ref_proj]
  rfl

end Cert.Gcn.Ref

end
-- ==== Proof.lean ====
/-
  A graph-convolution layer, kernel against reference, over the extended reals.

  Both programs compute `out (r, c) = agg (r, c) + bias c`, where `agg` sums, over the edges `e` with `rows e = r`,
  `vals e · sp (cols e, c)`, and `sp = X · W` is the projection of the node features. The kernel program computes
  `sp` in a first region, ten row blocks of 10000 rows, each a block of `X` times the whole `W` (the narrowing of the
  operands is the identity over the extended reals, and a matrix product into a zero accumulator is the plain
  sum); applies on the host the same gather, scaling and scatter-add as the reference; and adds the bias row in a
  second region, again ten row blocks. The reference computes `sp` by one `dot_general` and adds the bias after two
  broadcasts. Entry by entry the two products are the same sum over the 128 features, the aggregation is one and
  the same composite of host operations applied to equal arrays, and the bias read is the same entry: no algebraic
  law beyond that is used, and the finiteness of the inputs is never opened.

  The three frames: the kernel programs' are their generated frame certificates; the reference's is its run with
  the result dropped. The idealization rewrote nothing, so `preserves` is trivial.
-/
import proofs.«104675_j17016660427562_1_alg».proof.Defs
import proofs.«104675_j17016660427562_1_alg».proof.Proof.Gen.Kernel
import proofs.«104675_j17016660427562_1_alg».proof.Proof.Gen.Kernel.Skeleton
import proofs.«104675_j17016660427562_1_alg».proof.Proof.Gen.Kernel.Launch
import proofs.«104675_j17016660427562_1_alg».proof.Proof.Gen.Kernel.Points
import proofs.«104675_j17016660427562_1_alg».proof.Proof.Gen.Kernel.Frame
import proofs.«104675_j17016660427562_1_alg».proof.Proof.Gen.KernelIdeal
import proofs.«104675_j17016660427562_1_alg».proof.Proof.Gen.KernelIdeal.Skeleton
import proofs.«104675_j17016660427562_1_alg».proof.Proof.Gen.KernelIdeal.Launch
import proofs.«104675_j17016660427562_1_alg».proof.Proof.Gen.KernelIdeal.Points
import proofs.«104675_j17016660427562_1_alg».proof.Proof.Gen.KernelIdeal.Frame
import proofs.«104675_j17016660427562_1_alg».proof.Proof.Gen.ReferenceIdeal
import proofs.«104675_j17016660427562_1_alg».proof.Proof.Gen.ReferenceIdeal.Run
import proofs.«104675_j17016660427562_1_alg».proof.Proof.Gen.ReferenceIdeal.Read
import proofs.«104675_j17016660427562_1_alg».proof.Proof.Gen.Pre_finite_inputs
import proofs.«104675_j17016660427562_1_alg».proof.Proof.KernelValue
import proofs.«104675_j17016660427562_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the layer's output of the
    kernel program's launch arrays: the kernel program by its run read through both regions, the reference by
    its run read one operation at a time. -/
theorem algebraic : Cert.algebraic_KernelIdeal_ReferenceIdeal := by
  intro m ρ m' ρ' _ hagree
  refine ⟨_, Cert.Gcn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Gcn.Ref.ref_out,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
